-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) (main_arg2 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S16x3x512x512 .f32 := Host.absf main_arg2
  let main_cst_2 : FVec F S_ .f32 := constant S_ .f32 0x7F800000#32
  let main_v10 : FVec F S16x3x512x512 .f32 := broadcastInDim S16x3x512x512 ![] bcast_S_S16x3x512x512 main_cst_2
  let main_v11 : IVec S16x3x512x512 1 := cmpf .olt main_v9 main_v10
  let main_c_3 : IVec S_ 1 := constantI S_ 1 1#1
  let main_v12 : IVec S_ 1 := (fun x v => Host.reduce IntOp.andi x v reducesTo_S16x3x512x512_S_d0_1_2_3 h_S_) main_v11 main_c_3
  let main_v13 : IVec S_ 1 := andi main_v8 main_v12
  main_v13
-- ==== Kernel.lean ====
abbrev S16x3x512x512 : Shape := ⟨4, ![16, 3, 512, 512]⟩
abbrev S2x3x16 : Shape := ⟨3, ![2, 3, 16]⟩
abbrev S1x3x512x512 : Shape := ⟨4, ![1, 3, 512, 512]⟩
abbrev S1x3x16 : Shape := ⟨3, ![1, 3, 16]⟩
abbrev S3x512x512 : Shape := ⟨3, ![3, 512, 512]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x16 : Shape := ⟨2, ![1, 16]⟩
abbrev S3x16 : Shape := ⟨2, ![3, 16]⟩
abbrev S_ : Shape := ⟨0, ![]⟩
abbrev S16 : Shape := ⟨1, ![16]⟩

abbrev nBuf : Space → Nat
  | .hbm => 30
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S2x3x16, .f32⟩
  | .hbm, ⟨4, _⟩ => ⟨S_, .f32⟩
  | .hbm, ⟨5, _⟩ => ⟨S3x16, .f32⟩
  | .hbm, ⟨6, _⟩ => ⟨S1x16, .f32⟩
  | .hbm, ⟨7, _⟩ => ⟨S16, .f32⟩
  | .hbm, ⟨8, _⟩ => ⟨S1x16, .f32⟩
  | .hbm, ⟨9, _⟩ => ⟨S16, .f32⟩
  | .hbm, ⟨10, _⟩ => ⟨S1x16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .i1⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x3x512x512, .f32⟩
  | .local _ .vmem, ⟨5, _⟩ => ⟨S1x3x512x512, .f32⟩
  | .local _ .vmem, ⟨6, _⟩ => ⟨S1x3x16, .f32⟩
  | .local _ .vmem, ⟨7, _⟩ => ⟨S1x3x16, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x3x16_S1x3x16_0_0_0 : ∀ a, (![0, 0, 0] : Fin 3 → Nat) a + S1x3x16.size a ≤ S1x3x16.size a
  h_S1x3x16 : 0 < S1x3x16.numel
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  slices_S3x512x512_o0_0_0_S1x512x512 : S3x512x512.Slices ![0, 0, 0] S1x512x512
  shapeCasts_S1x512x512_S512x512 : S1x512x512.ShapeCasts S512x512
  slices_S3x512x512_o1_0_0_S1x512x512 : S3x512x512.Slices ![1, 0, 0] S1x512x512
  slices_S3x512x512_o2_0_0_S1x512x512 : S3x512x512.Slices ![2, 0, 0] S1x512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  concatenates_S1x1_S1x1_S1x1_S1x1_S1x1_S1x1_S1x1_S1x1_S1x1_S1x1_S1x1_S1x1_S1x1_S1x1_S1x1_S1x1_S1x16_d1 : Shape.Concatenates [S1x1, S1x1, S1x1, S1x1, S1x1, S1x1, S1x1, S1x1, S1x1, S1x1, S1x1, S1x1, S1x1, S1x1, S1x1, S1x1] S1x16 1
  concatenates_S1x16_S1x16_S1x16_S3x16_d0 : Shape.Concatenates [S1x16, S1x16, S1x16] S3x16 0
  shapeCasts_S1x3x16_S3x16 : S1x3x16.ShapeCasts S3x16
  shapeCasts_S3x16_S1x3x16 : S3x16.ShapeCasts S1x3x16
  reducesTo_S2x3x16_S3x16_d0 : S2x3x16.ReducesTo [0] S3x16
  h_S_ : 0 < S_.numel
  slices_S3x16_S1x16_0_0 : S3x16.Slices ![0, 0] S1x16
  shapeCasts_S1x16_S16 : S1x16.ShapeCasts S16
  slices_S3x16_S1x16_1_0 : S3x16.Slices ![1, 0] S1x16
  slices_S3x16_S1x16_2_0 : S3x16.Slices ![2, 0] S1x16
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S16x3x512x512.size a
  hwx0_2 : ∀ i : grid0.Coords, EltTy.bits .f32 = 32 ∨ (Rect.block (s := S16x3x512x512) S1x3x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x16.size a ≤ S2x3x16.size a
  hwx0_3 : ∀ i : grid0.Coords, EltTy.bits .f32 = 32 ∨ (Rect.block (s := S2x3x16) S1x3x16.size (cc0_transform_3 i) (hinb0_3 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x3x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x1x512x512 : Shape := ⟨4, ![16, 1, 512, 512]⟩
abbrev S16x512x512 : Shape := ⟨3, ![16, 512, 512]⟩
abbrev S_ : Shape := ⟨0, ![]⟩
abbrev S4194304 : Shape := ⟨1, ![4194304]⟩
abbrev S17 : Shape := ⟨1, ![17]⟩
abbrev S4194304x1 : Shape := ⟨2, ![4194304, 1]⟩
abbrev S16 : Shape := ⟨1, ![16]⟩

abbrev nBuf : Space → Nat
  | .hbm => 112
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S16x1x512x512, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x1x512x512, .f32⟩
  | .hbm, ⟨9, _⟩ => ⟨S16x512x512, .f32⟩
  | .hbm, ⟨10, _⟩ => ⟨S_, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S16x1x512x512, .f32⟩
  | .hbm, ⟨15, _⟩ => ⟨S16x512x512, .f32⟩
  | .hbm, ⟨16, _⟩ => ⟨S_, .f32⟩
  | .hbm, ⟨17, _⟩ => ⟨S16x512x512, .f32⟩
  | .hbm, ⟨18, _⟩ => ⟨S16x512x512, .f32⟩
  | .hbm, ⟨19, _⟩ => ⟨S16x512x512, .f32⟩
  | .hbm, ⟨20, _⟩ => ⟨S4194304, .f32⟩
  | .hbm, ⟨21, _⟩ => ⟨S16x1x512x512, .f32⟩
  | .hbm, ⟨22, _⟩ => ⟨S16x512x512, .f32⟩
  | .hbm, ⟨23, _⟩ => ⟨S_, .f32⟩
  | .hbm, ⟨24, _⟩ => ⟨S16x512x512, .f32⟩
  | .hbm, ⟨25, _⟩ => ⟨S16x512x512, .f32⟩
  | .hbm, ⟨26, _⟩ => ⟨S16x1x512x512, .f32⟩
  | .hbm, ⟨27, _⟩ => ⟨S16x512x512, .f32⟩
  | .hbm, ⟨28, _⟩ => ⟨S_, .f32⟩
  | .hbm, ⟨29, _⟩ => ⟨S16x512x512, .f32⟩
  | .hbm, ⟨30, _⟩ => ⟨S16x512x512, .f32⟩
  | .hbm, ⟨31, _⟩ => ⟨S16x512x512, .f32⟩
  | .hbm, ⟨32, _⟩ => ⟨S16x1x512x512, .f32⟩
  | .hbm, ⟨33, _⟩ => ⟨S16x512x512, .f32⟩
  | .hbm, ⟨34, _⟩ => ⟨S_, .f32⟩
  | .hbm, ⟨35, _⟩ => ⟨S16x512x512, .f32⟩
  | .hbm, ⟨36, _⟩ => ⟨S16x512x512, .f32⟩
  | .hbm, ⟨37, _⟩ => ⟨S16x512x512, .f32⟩
  | .hbm, ⟨38, _⟩ => ⟨S4194304, .f32⟩
  | .hbm, ⟨39, _⟩ => ⟨S16x1x512x512, .f32⟩
  | .hbm, ⟨40, _⟩ => ⟨S16x512x512, .f32⟩
  | .hbm, ⟨41, _⟩ => ⟨S_, .f32⟩
  | .hbm, ⟨42, _⟩ => ⟨S16x512x512, .f32⟩
  | .hbm, ⟨43, _⟩ => ⟨S16x512x512, .f32⟩
  | .hbm, ⟨44, _⟩ => ⟨S16x1x512x512, .f32⟩
  | .hbm, ⟨45, _⟩ => ⟨S16x512x512, .f32⟩
  | .hbm, ⟨46, _⟩ => ⟨S_, .f32⟩
  | .hbm, ⟨47, _⟩ => ⟨S16x512x512, .f32⟩
  | .hbm, ⟨48, _⟩ => ⟨S16x512x512, .f32⟩
  | .hbm, ⟨49, _⟩ => ⟨S16x512x512, .f32⟩
  | .hbm, ⟨50, _⟩ => ⟨S16x1x512x512, .f32⟩
  | .hbm, ⟨51, _⟩ => ⟨S16x512x512, .f32⟩
  | .hbm, ⟨52, _⟩ => ⟨S_, .f32⟩
  | .hbm, ⟨53, _⟩ => ⟨S16x512x512, .f32⟩
  | .hbm, ⟨54, _⟩ => ⟨S16x512x512, .f32⟩
  | .hbm, ⟨55, _⟩ => ⟨S16x512x512, .f32⟩
  | .hbm, ⟨56, _⟩ => ⟨S4194304, .f32⟩
  | .hbm, ⟨57, _⟩ => ⟨S_, .f32⟩
  | .hbm, ⟨58, _⟩ => ⟨S4194304, .f32⟩
  | .hbm, ⟨59, _⟩ => ⟨S4194304, .f32⟩
  | .hbm, ⟨60, _⟩ => ⟨S4194304, .f32⟩
  | .hbm, ⟨61, _⟩ => ⟨S4194304, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S4194304, .i32⟩
  | .hbm, ⟨66, _⟩ => ⟨S4194304, .i32⟩
  | .hbm, ⟨67, _⟩ => ⟨S_, .i32⟩
  | .hbm, ⟨68, _⟩ => ⟨S4194304, .i32⟩
  | .hbm, ⟨69, _⟩ => ⟨S4194304, .i32⟩
  | .hbm, ⟨70, _⟩ => ⟨S_, .f32⟩
  | .hbm, ⟨71, _⟩ => ⟨S4194304, .f32⟩
  | .hbm, ⟨72, _⟩ => ⟨S4194304, .i1⟩
  | .hbm, ⟨73, _⟩ => ⟨S_, .i32⟩
  | .hbm, ⟨74, _⟩ => ⟨S_, .i32⟩
  | .hbm, ⟨75, _⟩ => ⟨S4194304, .i32⟩
  | .hbm, ⟨76, _⟩ => ⟨S4194304, .i32⟩
  | .hbm, ⟨77, _⟩ => ⟨S_, .f32⟩
  | .hbm, ⟨78, _⟩ => ⟨S4194304, .f32⟩
  | .hbm, ⟨79, _⟩ => ⟨S_, .f32⟩
  | .hbm, ⟨80, _⟩ => ⟨S17, .f32⟩
  | .hbm, ⟨81, _⟩ => ⟨S4194304x1, .i32⟩
  | .hbm, ⟨82, _⟩ => ⟨S17, .f32⟩
  | .hbm, ⟨83, _⟩ => ⟨S16, .f32⟩
  | .hbm, ⟨84, _⟩ => ⟨S_, .f32⟩
  | .hbm, ⟨85, _⟩ => ⟨S17, .f32⟩
  | .hbm, ⟨86, _⟩ => ⟨S4194304x1, .i32⟩
  | .hbm, ⟨87, _⟩ => ⟨S17, .f32⟩
  | .hbm, ⟨88, _⟩ => ⟨S16, .f32⟩
  | .hbm, ⟨89, _⟩ => ⟨S_, .f32⟩
  | .hbm, ⟨90, _⟩ => ⟨S17, .f32⟩
  | .hbm, ⟨91, _⟩ => ⟨S4194304x1, .i32⟩
  | .hbm, ⟨92, _⟩ => ⟨S17, .f32⟩
  | .hbm, ⟨93, _⟩ => ⟨S16, .f32⟩
  | .hbm, ⟨94, _⟩ => ⟨S_, .f32⟩
  | .hbm, ⟨95, _⟩ => ⟨S16, .f32⟩
  | .hbm, ⟨96, _⟩ => ⟨S16, .f32⟩
  | .hbm, ⟨97, _⟩ => ⟨S_, .f32⟩
  | .hbm, ⟨98, _⟩ => ⟨S16, .f32⟩
  | .hbm, ⟨99, _⟩ => ⟨S16, .i1⟩
  | .hbm, ⟨100, _⟩ => ⟨S16, .f32⟩
  | .hbm, ⟨101, _⟩ => ⟨S16, .f32⟩
  | .hbm, ⟨102, _⟩ => ⟨S16, .f32⟩
  | .hbm, ⟨103, _⟩ => ⟨S16, .f32⟩
  | .hbm, ⟨104, _⟩ => ⟨S_, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c : Ref sig .tc := ⟨.hbm, 62, rfl⟩
abbrev main_c_9 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_call1_v0 : Ref sig .tc := ⟨.hbm, 74, rfl⟩
abbrev main_call1_v1 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v74 : Ref sig .tc := ⟨.hbm, 107, rfl⟩
abbrev main_cst_19 : Ref sig .tc := ⟨.hbm, 108, rfl⟩
abbrev main_v75 : Ref sig .tc := ⟨.hbm, 109, rfl⟩
abbrev main_cst_20 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  slices_S16x3x512x512_S16x1x512x512_0_0_0_0 : S16x3x512x512.Slices ![0, 0, 0, 0] S16x1x512x512
  shapeCasts_S16x1x512x512_S16x512x512 : S16x1x512x512.ShapeCasts S16x512x512
  bcast_S_S16x512x512 : S_.BroadcastsInDim S16x512x512 (![] : Fin 0 → Fin S16x512x512.rank)
  slices_S16x3x512x512_S16x1x512x512_0_1_0_0 : S16x3x512x512.Slices ![0, 1, 0, 0] S16x1x512x512
  slices_S16x3x512x512_S16x1x512x512_0_2_0_0 : S16x3x512x512.Slices ![0, 2, 0, 0] S16x1x512x512
  shapeCasts_S16x512x512_S4194304 : S16x512x512.ShapeCasts S4194304
  bcast_S_S4194304 : S_.BroadcastsInDim S4194304 (![] : Fin 0 → Fin S4194304.rank)
  bcast_S_S17 : S_.BroadcastsInDim S17 (![] : Fin 0 → Fin S17.rank)
  bcast_S4194304_S4194304x1_0 : S4194304.BroadcastsInDim S4194304x1 (![0] : Fin 1 → Fin S4194304x1.rank)
  slices_S17_S16_0 : S17.Slices ![0] S16
  bcast_S_S16 : S_.BroadcastsInDim S16 (![] : Fin 0 → Fin S16.rank)
  reducesTo_S16_S_d0 : S16.ReducesTo [0] S_
  h_S_ : 0 < S_.numel
  scatter_S17_S4194304x1_S4194304_n_0_0_1_wf : ScatterDims.WF S17 S4194304x1 S4194304 [] [0] [0] 1

variable [Facts₀]

def scatter_S17_S4194304x1_S4194304_n_0_0_1 : ScatterDims S17 S4194304x1 S4194304 where
  updateWindowDims := []
  insertedWindowDims := [0]
  scatterDimsToOperandDims := [0]
  indexVectorDim := 1
  wf := scatter_S17_S4194304x1_S4194304_n_0_0_1_wf

class Facts : Prop extends Facts₀ where

variable [Facts]
-- ==== Proof.Body.lean ====
/-
  What one grid point adds to the kernel's output block.

  A block is one image (1 x 3 x 512 x 512). Its luma plane is 0.299 a + 0.587 b + 0.114 c of the three channel planes; the
  bin plane is the word 16 where the luma is at least one and floor(16 * luma) clamped into [0, 15] elsewhere. For a bin b
  the count cell is the total over the plane of the mask "bin = b" read as 0.0 / 1.0, and a sum cell is the total of a
  plane's values where the mask holds and of zero elsewhere; a total is the lane sum of each row followed by the sum of
  the 512 row sums. The update is the 3 x 16 array of the sixteen count cells, the sixteen sum cells of the first block's
  luma and the sixteen of the second block's, all under the bins of the third block; the body stores the block it found
  plus the update (after a reset to zero at the first point of each group of eight).
-/
import proofs.«133189_j16312285790284_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Channel plane of a block: the slice at the channel's offset, as a 512 x 512 plane. -/
def chan (x : Vec F S1x3x512x512 .f32) (off : Fin 3 → Nat) (h : S3x512x512.Slices off S1x512x512) : FVec F S512x512 .f32 :=
  shapeCast S512x512 (extractStridedSlice S1x512x512 off (shapeCast S3x512x512 x shapeCasts_S1x3x512x512_S3x512x512) h) shapeCasts_S1x512x512_S512x512

/-- The luma plane of a block. -/
def lumaV (x : Vec F S1x3x512x512 .f32) : FVec F S512x512 .f32 :=
  addf
    (addf (mulf (broadcast S512x512 (Scalar.ofBits .f32 0x3E991687#32)) (chan x ![0, 0, 0] slices_S3x512x512_o0_0_0_S1x512x512))
      (mulf (broadcast S512x512 (Scalar.ofBits .f32 0x3F1645A2#32)) (chan x ![1, 0, 0] slices_S3x512x512_o1_0_0_S1x512x512)))
    (mulf (broadcast S512x512 (Scalar.ofBits .f32 0x3DE978D5#32)) (chan x ![2, 0, 0] slices_S3x512x512_o2_0_0_S1x512x512))

/-- The bin plane of a luma plane. -/
def binsV (il : FVec F S512x512 .f32) : IVec S512x512 32 :=
  select (cmpf .oge il (broadcast S512x512 (Scalar.ofBits .f32 0x3F800000#32))) (broadcast S512x512 16#32)
    (minsi (broadcast S512x512 15#32)
      (maxsi (broadcast S512x512 0#32) (fptosi 32 (floor (mulf il (broadcast S512x512 (Scalar.ofBits .f32 0x41800000#32)))))))

/-- The total of a plane: each row's lane sum, then the sum of the row sums. -/
def total (v : FVec F S512x512 .f32) : FVec F S1x1 .f32 :=
  shapeCast S1x1
    (multiReduction .add [0] S1
      (shapeCast S512x1 (multiReduction .add [1] S512 v 0x00000000#32 reduces_S512x512_S512 (.inl rfl) rfl) shapeCasts_S512_S512x1)
      0x00000000#32 reduces_S512x1_S1 (.inl rfl) rfl)
    shapeCasts_S1_S1x1

/-- The mask "bin = b". -/
def mask (bins : IVec S512x512 32) (b : BitVec 32) : IVec S512x512 1 := cmpi .eq bins (broadcast S512x512 b)

/-- The count cell of bin b. -/
def cntCell (bins : IVec S512x512 32) (b : BitVec 32) : FVec F S1x1 .f32 :=
  total (sitofp .f32 (extui 32 (mask bins b) natLt_1_32))

/-- The sum cell of bin b for a plane of values. -/
def sumCell (v : FVec F S512x512 .f32) (bins : IVec S512x512 32) (b : BitVec 32) : FVec F S1x1 .f32 :=
  total (select (mask bins b) v (broadcast S512x512 (Scalar.ofBits .f32 0x00000000#32)))

/-- Sixteen cells side by side, bins 0 to 15. -/
def row (f : BitVec 32 → FVec F S1x1 .f32) : FVec F S1x16 .f32 :=
  concatenate S1x16 1
    [⟨S1x1, f 0#32⟩, ⟨S1x1, f 1#32⟩, ⟨S1x1, f 2#32⟩, ⟨S1x1, f 3#32⟩, ⟨S1x1, f 4#32⟩, ⟨S1x1, f 5#32⟩, ⟨S1x1, f 6#32⟩, ⟨S1x1, f 7#32⟩,
      ⟨S1x1, f 8#32⟩, ⟨S1x1, f 9#32⟩, ⟨S1x1, f 10#32⟩, ⟨S1x1, f 11#32⟩, ⟨S1x1, f 12#32⟩, ⟨S1x1, f 13#32⟩, ⟨S1x1, f 14#32⟩, ⟨S1x1, f 15#32⟩]
    concatenates_S1x1_S1x1_S1x1_S1x1_S1x1_S1x1_S1x1_S1x1_S1x1_S1x1_S1x1_S1x1_S1x1_S1x1_S1x1_S1x1_S1x16_d1

/-- The update of one point: counts, first block's luma sums, second block's luma sums, under the third block's bins. -/
def upd (x0 x1 x2 : Vec F S1x3x512x512 .f32) : FVec F S3x16 .f32 :=
  concatenate S3x16 0
    [⟨S1x16, row (cntCell (binsV (lumaV x2)))⟩, ⟨S1x16, row (sumCell (lumaV x0) (binsV (lumaV x2)))⟩,
      ⟨S1x16, row (sumCell (lumaV x1) (binsV (lumaV x2)))⟩]
    concatenates_S1x16_S1x16_S1x16_S3x16_d0

/-- What the body leaves in the output block it found at `acc`. -/
def step (acc : Vec F S1x3x16 .f32) (x0 x1 x2 : Vec F S1x3x512x512 .f32) : Vec F S1x3x16 .f32 :=
  shapeCast S1x3x16 (addf (shapeCast S3x16 acc shapeCasts_S1x3x16_S3x16) (upd x0 x1 x2)) shapeCasts_S3x16_S1x3x16

/-- The zero block the reset stores. -/
abbrev zero : Vec F S1x3x16 .f32 := broadcast S1x3x16 (Scalar.ofBits .f32 0x00000000#32)

set_option maxHeartbeats 1000000 in
/-- At a point that is not the first of its group the body leaves the block it found plus the point's update. -/
theorem out_B (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x3x512x512 .f32) (h4 : a4.IsWhole)
    (a5 : Memref sig .tc .vmem S1x3x16 .f32) (h5 : a5.IsWhole) (hc : ¬cond0_0 i)
    (x0 x1 x2 : Vec F S1x3x512x512 .f32) (xo : Vec F S1x3x16 .f32) :
    out0_B_3 c i a2 h2 a3 h3 a4 h4 a5 h5 hc x0 x1 x2 xo = step xo x0 x1 x2 := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  dsimp only [View.readAt_eq_ld]
  rw [h2.read_unread, h3.read_unread, h4.read_unread, h5.read_unread,
    View.ld_unit_zero (S := S1x3x512x512) hz4 _ x0, View.ld_unit_zero (S := S1x3x512x512) hz4 _ x1,
    View.ld_unit_zero (S := S1x3x512x512) hz4 _ x2, View.ld_unit_zero (S := S1x3x16) hz3 _ xo]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, step, upd, row, cntCell, sumCell, total, mask, binsV, lumaV, chan]

set_option maxHeartbeats 1000000 in
/-- At the first point of a group the body stores the zero block, reads it back, and leaves zero plus the point's update. -/
theorem out_A (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x3x512x512 .f32) (h4 : a4.IsWhole)
    (a5 : Memref sig .tc .vmem S1x3x16 .f32) (h5 : a5.IsWhole) (hc : cond0_0 i)
    (x0 x1 x2 : Vec F S1x3x512x512 .f32) :
    out0_A_3 c i a2 h2 a3 h3 a4 h4 a5 h5 hc x0 x1 x2 = step zero x0 x1 x2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x3x16) hz3, View.readCov_unit_zero (S := S1x3x16) _ hz3]
  dsimp only [View.readAt_eq_ld]
  rw [h2.read_unread, h3.read_unread, h4.read_unread,
    View.ld_unit_zero (S := S1x3x512x512) hz4 _ x0, View.ld_unit_zero (S := S1x3x512x512) hz4 _ x1,
    View.ld_unit_zero (S := S1x3x512x512) hz4 _ x2]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, step, upd, row, cntCell, sumCell, total, mask, binsV, lumaV, chan, zero]

end Cert.KernelIdeal.Body

end
-- ==== Proof.Spec.lean ====
/-
  What both programs compute, stated over plain arrays.

  An image batch is an array over (n, channel, row, column), 16 x 3 x 512 x 512. A pixel's luma is
  0.299 a + 0.587 b + 0.114 c of its three channels (the three single-precision words, read as they stand). The pixel's bin
  is the word: 16 where the luma is at least one, else floor(16 * luma) converted to a 32-bit integer and clamped into
  [0, 15]. For a bin b, a statistic is the sum over every pixel of the batch whose bin (taken from the third batch) is b
  of: one (the count), the first batch's luma, the second batch's luma. The result is the mean over the sixteen bins of
  |psum / max(count, 1) - tsum / max(count, 1)| where the count is positive, and zero elsewhere.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx
open scoped BigOperators

variable {F : FTy → Type} [FloatOps F]

/-- A batch of sixteen three-channel 512 x 512 images. -/
abbrev SImg : Shape := ⟨4, ![16, 3, 512, 512]⟩
/-- One image of the batch, as a block. -/
abbrev SBlk : Shape := ⟨4, ![1, 3, 512, 512]⟩
/-- Sixteen bins. -/
abbrev SBins : Shape := ⟨1, ![16]⟩
/-- A scalar. -/
abbrev SSc : Shape := ⟨0, ![]⟩

/-- The luma of a pixel from its three channels. -/
def luma (a b c : F .f32) : F .f32 :=
  FloatOps.addf
    (FloatOps.addf (FloatOps.mulf (FloatOps.ofBits .f32 0x3E991687#32) a) (FloatOps.mulf (FloatOps.ofBits .f32 0x3F1645A2#32) b))
    (FloatOps.mulf (FloatOps.ofBits .f32 0x3DE978D5#32) c)

/-- The bin of a luma value: 16 at one and above, else floor(16 * luma) as a signed word clamped into [0, 15]. -/
def binOf (il : F .f32) : BitVec 32 :=
  Scalar.select (FloatOps.cmpf .oge il (FloatOps.ofBits .f32 0x3F800000#32)) 16#32
    (IntOp.minsi 15#32 (IntOp.maxsi 0#32 (FloatOps.fptosi 32 (FloatOps.floor (FloatOps.mulf il (FloatOps.ofBits .f32 0x41800000#32))))))

/-- The luma of pixel (r, q) of image n of a batch. -/
def lumaAt (x : SImg.Idx → F .f32) (n : Fin 16) (r q : Fin 512) : F .f32 :=
  luma (x (ix4 n (0 : Fin 3) r q)) (x (ix4 n (1 : Fin 3) r q)) (x (ix4 n (2 : Fin 3) r q))

/-- The bin of pixel (r, q) of image n. -/
def binAt (x : SImg.Idx → F .f32) (n : Fin 16) (r q : Fin 512) : BitVec 32 := binOf (lumaAt x n r q)

/-- The sum, over every pixel whose bin is b, of a per-pixel value. -/
def binSum (v : Fin 16 → Fin 512 → Fin 512 → EReal) (bins : Fin 16 → Fin 512 → Fin 512 → BitVec 32) (b : BitVec 32) : EReal :=
  ∑ n : Fin 16, ∑ r : Fin 512, ∑ q : Fin 512, if bins n r q = b then v n r q else 0

/-- The count of bin b, as a vector over the bins. -/
def counts (x2 : SImg.Idx → Ideal .f32) : FVec Ideal SBins .f32 :=
  fun j => binSum (fun _ _ _ => 1) (binAt x2) (BitVec.ofNat 32 (j 0).val)

/-- The sum of a batch's luma over bin b, as a vector over the bins. -/
def lumaSums (x x2 : SImg.Idx → Ideal .f32) : FVec Ideal SBins .f32 :=
  fun j => binSum (lumaAt x) (binAt x2) (BitVec.ofNat 32 (j 0).val)

/-- From the three statistics to the result: the mean over the bins of |psum / max(count, 1) - tsum / max(count, 1)|
    where the count is positive, zero elsewhere. The host's operations, in their order. -/
def finish (hb : SSc.BroadcastsInDim SBins (![] : Fin 0 → Fin SBins.rank)) (hr : SBins.ReducesTo [0] SSc) (h0 : 0 < SSc.numel)
    (cnt ps ts : FVec F SBins .f32) : FVec F SSc .f32 :=
  Host.divf
    (Host.reduceAdd
      (select (cmpf .ogt cnt (broadcastInDim SBins ![] hb (constant SSc .f32 0x00000000#32)))
        (Host.absf (subf (Host.divf ps (maximumf cnt (broadcastInDim SBins ![] hb (constant SSc .f32 0x3F800000#32))))
          (Host.divf ts (maximumf cnt (broadcastInDim SBins ![] hb (constant SSc .f32 0x3F800000#32))))))
        (broadcastInDim SBins ![] hb (constant SSc .f32 0x00000000#32)))
      (constant SSc .f32 0x00000000#32) hr h0)
    (constant SSc .f32 0x41800000#32)

end Cert.Hist

end
-- ==== Proof.KernelRun.lean ====
/-
  The kernel's run, read: what its result ends holding.

  The grid has sixteen points in two groups of eight; point t works on image t of each batch. The output block of
  a group is carried from point to point: the first point of a group leaves zero plus its update, every later point what it
  found plus its update (the running value). The block is written back once, after the last point of the group, into
  row t / 8 of the 2 x 3 x 16 result array; the two write-backs cover the array. The host then sums the two rows, takes the
  three statistics apart and finishes.
-/
import proofs.«133189_j16312285790284_1_alg».proof.Proof.Body
import proofs.«133189_j16312285790284_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Body

variable {F : FTy → Type} [FloatOps F]
variable (m : (ℓ : Loc nD τ sig) → Buf (Elt F) ℓ) (ρ : Dev nD → PrngReg)

/-- The blocks of the three batches at point t, as plain 1 x 3 x 512 x 512 vectors. -/
abbrev blk0 (c : Dev nD) (t : Fin cfg0.N) : Vec F S1x3x512x512 .f32 := iblk m c 0 t
abbrev blk1 (c : Dev nD) (t : Fin cfg0.N) : Vec F S1x3x512x512 .f32 := iblk m c 1 t
abbrev blk2 (c : Dev nD) (t : Fin cfg0.N) : Vec F S1x3x512x512 .f32 := iblk m c 2 t

/-- The running value of the output block after point n: reset at the first point of each group of eight. -/
def running (c : Dev nD) : (n : ℕ) → n < cfg0.N → Vec F S1x3x16 .f32
  | 0, h => step zero (blk0 m c ⟨0, h⟩) (blk1 m c ⟨0, h⟩) (blk2 m c ⟨0, h⟩)
  | n + 1, h =>
    if (n + 1) % 8 = 0 then step zero (blk0 m c ⟨n + 1, h⟩) (blk1 m c ⟨n + 1, h⟩) (blk2 m c ⟨n + 1, h⟩)
    else step (running c n (Nat.lt_of_succ_lt h)) (blk0 m c ⟨n + 1, h⟩) (blk1 m c ⟨n + 1, h⟩) (blk2 m c ⟨n + 1, h⟩)

/-- What the output's staging buffer holds after point n is the running value: by induction on the point. -/
theorem outsAt_eq (c : Dev nD) : ∀ (n : ℕ) (h : n < cfg0.N), outsAt0 m c n h = running m c n h
  | 0, h => (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩)
        ((hcond0_0 ⟨0, h⟩).mpr rfl) (iblk m c 0 ⟨0, h⟩) (iblk m c 1 ⟨0, h⟩) (iblk m c 2 ⟨0, h⟩))
  | n + 1, h => by
    by_cases h0 : (n + 1) % 8 = 0
    · rw [outsAt0_A m c ⟨n + 1, h⟩ h0]
      unfold running
      rw [if_pos h0]
      exact out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) ((hcond0_0 ⟨n + 1, h⟩).mpr h0) (iblk m c 0 ⟨n + 1, h⟩) (iblk m c 1 ⟨n + 1, h⟩) (iblk m c 2 ⟨n + 1, h⟩)
    · rw [outsAt0_B m c ⟨n + 1, h⟩ h0]
      unfold running
      rw [if_neg h0]
      refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (fun hh => h0 ((hcond0_0 ⟨n + 1, h⟩).mp hh)) (iblk m c 0 ⟨n + 1, h⟩) (iblk m c 1 ⟨n + 1, h⟩) (iblk m c 2 ⟨n + 1, h⟩) _).trans ?_
      exact congrArg (fun a => step a (blk0 m c ⟨n + 1, h⟩) (blk1 m c ⟨n + 1, h⟩) (blk2 m c ⟨n + 1, h⟩)) (outsAt_eq c n (Nat.lt_of_succ_lt h))

/-- The running value does not depend on how its point is written. -/
theorem running_congr (c : Dev nD) {n n' : ℕ} (e : n = n') (h : n < cfg0.N) (h' : n' < cfg0.N) : running m c n h = running m c n' h' := by
  subst e; rfl

/-- The output window's block at point t sits at row t / 8 of the result array, and is a whole 1 x 3 x 16 block. -/
theorem out_index : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)
theorem out_xsize : ∀ t : Fin cfg0.N, win0_3.xsize (grid0.coords t) (0 : Fin 3) = 1 ∧ win0_3.xsize (grid0.coords t) (1 : Fin 3) = 3 ∧ win0_3.xsize (grid0.coords t) (2 : Fin 3) = 16 :=
  (by decide +kernel : ∀ t : Fin grid0.N, win0_3.xsize (grid0.coords t) (0 : Fin 3) = 1 ∧ win0_3.xsize (grid0.coords t) (1 : Fin 3) = 3 ∧ win0_3.xsize (grid0.coords t) (2 : Fin 3) = 16)

/-- The result array: row g holds the running value after the last point of group g. -/
def result (c : Dev nD) : Vec F S2x3x16 .f32 :=
  fun i => running m c (8 * (i 0).val + 7) (by have h : (i 0).val < 2 := (i 0).isLt; rw [show cfg0.N = 16 from N_0]; omega)
    (ix3 (0 : Fin 1) (⟨(i 1).val, (i 1).isLt⟩ : Fin 3) (⟨(i 2).val, (i 2).isLt⟩ : Fin 16))

/-- A write-back (after the last point of a group) writes row t / 8 of the result. -/
theorem flushed_eq (c : Dev nD) (t : Fin cfg0.N) (hf : (cfg0.win 3).flush t = true) :
    (dats m 0 c).flushed 3 t = ((cfg0.win 3).blk t).view.read (Elt F) (result m c) := by
  have hN : cfg0.N = 16 := N_0
  have h7 : t.val % 8 = 7 := (flush0_3 t).mp hf
  obtain ⟨i0, i1, i2⟩ := out_index t
  show (cfg0.win 3).cut (grid0.coords t) ((dats m 0 c).after 3 t) = _
  rw [after0_3, outsAt_eq]
  funext y
  rw [View.read_apply]
  have y0 : (y 0).val < 1 := (y 0).isLt
  have e0 : ((((cfg0.win 3).blk t).view.emb y) 0).val = t.val / 8 := by
    show win0_3.index t 0 * 1 + 1 * (y 0).val = _
    rw [i0]; omega
  have e1 : ((((cfg0.win 3).blk t).view.emb y) 1).val = (y 1).val := by
    show win0_3.index t 1 * 3 + 1 * (y 1).val = _
    rw [i1]; omega
  have e2 : ((((cfg0.win 3).blk t).view.emb y) 2).val = (y 2).val := by
    show win0_3.index t 2 * 16 + 1 * (y 2).val = _
    rw [i2]; omega
  show running m c t.val t.isLt y = result m c (((cfg0.win 3).blk t).view.emb y)
  unfold result
  have ht16 : t.val < 16 := hN ▸ t.isLt
  have hE : t.val = 8 * ((((cfg0.win 3).blk t).view.emb y) 0).val + 7 := by rw [e0]; omega
  have hp : 8 * ((((cfg0.win 3).blk t).view.emb y) 0).val + 7 < cfg0.N := by rw [← hE]; exact t.isLt
  refine (congrFun (running_congr m c hE t.isLt hp) y).trans ?_
  refine congrArg (running m c (8 * ((((cfg0.win 3).blk t).view.emb y) 0).val + 7) hp) ?_
  funext a
  match a with
  | ⟨0, _⟩ => exact Fin.ext (by show (y 0).val = 0; omega)
  | ⟨1, _⟩ => exact Fin.ext e1.symm
  | ⟨2, _⟩ => exact Fin.ext e2.symm

/-- The two write-backs cover the result array, so it ends holding `result`. -/
theorem final_out (c : Dev nD) : (dats m 0 c).arrAt 3 cfg0.N = result m c :=
  (dats m 0 c).arrAt_eq_of_cover 3 (result m c) (flushed_eq m c) fun i => by
    have hN : cfg0.N = 16 := N_0
    have hi0 : (i 0 : Nat) < 2 := (i 0).isLt
    have hi1 : (i 1 : Nat) < 3 := (i 1).isLt
    have hi2 : (i 2 : Nat) < 16 := (i 2).isLt
    let t : Fin cfg0.N := ⟨8 * (i 0).val + 7, by rw [hN]; omega⟩
    obtain ⟨j0, j1, j2⟩ := out_index t
    obtain ⟨s0, s1, s2⟩ := out_xsize t
    have ht : t.val = 8 * (i 0).val + 7 := rfl
    refine ⟨t, (flush0_3 t).mpr (by rw [ht]; omega), ?_⟩
    show i ∈ ((View.whole main_v0).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [j0, s0, show win0_3.size 0 = 1 from rfl, ht]; omega
    | ⟨1, _⟩ =>
      show win0_3.index t 1 * win0_3.size 1 ≤ (i 1 : Nat) ∧ (i 1 : Nat) < win0_3.index t 1 * win0_3.size 1 + win0_3.xsize (grid0.coords t) 1
      rw [j1, s1]; omega
    | ⟨2, _⟩ =>
      show win0_3.index t 2 * win0_3.size 2 ≤ (i 2 : Nat) ∧ (i 2 : Nat) < win0_3.index t 2 * win0_3.size 2 + win0_3.xsize (grid0.coords t) 2
      rw [j2, s2]; omega

/-- The two group rows summed by the host. -/
def summed (A : Vec F S2x3x16 .f32) : FVec F S3x16 .f32 :=
  Host.reduceAdd A (constant S_ .f32 0x00000000#32) reducesTo_S2x3x16_S3x16_d0 h_S_

/-- One statistic: a row of the summed array as a vector over the sixteen bins. -/
def statRow (A : Vec F S2x3x16 .f32) (off : Fin 2 → Nat) (h : S3x16.Slices off S1x16) : FVec F S16 .f32 :=
  shapeCast S16 (extractStridedSlice S1x16 off (summed A) h) shapeCasts_S1x16_S16

/-- The host's operations after the region, as one function of the result array. -/
def hostTail (A : Vec F S2x3x16 .f32) : FVec F S_ .f32 :=
  Cert.Hist.finish bcast_S_S16 reducesTo_S16_S_d0 h_S_ (statRow A ![0, 0] slices_S3x16_S1x16_0_0) (statRow A ![1, 0] slices_S3x16_S1x16_1_0)
    (statRow A ![2, 0] slices_S3x16_S1x16_2_0)

set_option maxHeartbeats 1000000 in
/-- The host's stretch after the region leaves, in the program's result, the finish of the three statistics of the result array. -/
theorem tail_eq (c : Dev nD) :
    Pipeline.afterTail₀ cfgs (dats m) 0 (V0 m) [hostOps1, hostOps1_1, hostOps1_2] c main_v18 = hostTail (result m c) := by
  unfold Pipeline.afterTail₀
  simp only [hostOps1, hostOps1_1, hostOps1_2, List.flatten_cons, List.flatten_nil, List.append_nil, List.cons_append, List.nil_append]
  after_results_simp
  try simp only [StableHlo.TRef.ofBuf, StableHlo.TRef.toBuf, cast_eq]
  rw [show Pipeline.withArrays (cfgs 0).spec c (V0 m c) (fun w => (dats m 0 c).arrAt w (cfgs 0).N) (Proc.devRef .tc main_v0) = result m c from
    (Pipeline.withArrays_arr spec0 launch0.win.arr_inj c _ _ 3).trans (final_out m c)]
  rfl

/-- The run, read: the program's result at the finish of the result array's statistics, the arguments unchanged. -/
theorem run : θ_run defs (onTc (τ := τ) (main (F := F))) ⟨m, fun _ => 0, ρ⟩ fun r => ∀ c : Dev nD,
      r.2.mem ((c.tc : Thread nD τ).loc main_v18) = hostTail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v18 (Pipeline.mem_restRefs_of main_v18 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.RunValue

end
-- ==== Proof.BodyAt.lean ====
/-
  What one grid point adds to the output block, read entry by entry.

  A block is one image, 1 x 3 x 512 x 512. The entry (0, k, b) of the block the body leaves is the entry it found plus,
  for k = 0, the number of pixels of the third block whose bin is b; for k = 1 and k = 2, the sum of the first and of the
  second block's luma over those pixels. Each layer of the body's term is read at an index: a channel plane is the block
  at that channel, the luma and bin planes are pointwise, a total is the double sum over rows and columns, a cell is the
  total of a plane that is the value under the mask and zero elsewhere, a row of sixteen cells read at column b is the
  cell of bin b, and the update's row k is the k-th of its three rows.
-/
import proofs.«133189_j16312285790284_1_alg».proof.Proof.Body
import proofs.«133189_j16312285790284_1_alg».proof.Proof.Spec

set_option maxRecDepth 16384

noncomputable section

open Idealize.ShloMosaic Idealize.ShloMosaic.TcCoe Idealize.SL.Sem
open scoped BigOperators

namespace Cert.KernelIdeal.BodyAt

open Cert.KernelIdeal Cert.KernelIdeal.Gen Cert.KernelIdeal.Body Idealize.ShloMosaic Idealize.ShloMosaic.ValueIdx

/-- The luma of pixel (r, q) of a block. -/
abbrev blkLuma (x : Vec Ideal S1x3x512x512 .f32) (r q : Fin 512) : EReal :=
  Cert.Hist.luma (F := Ideal) (x (ix4 (0 : Fin 1) (0 : Fin 3) r q)) (x (ix4 (0 : Fin 1) (1 : Fin 3) r q)) (x (ix4 (0 : Fin 1) (2 : Fin 3) r q))

/-! ## The planes at a pixel -/

/-- A channel plane at (r, q) is the block at that channel. -/
theorem chan_apply (x : Vec Ideal S1x3x512x512 .f32) (ch : Fin 3) (off : Fin 3 → Nat) (h : S3x512x512.Slices off S1x512x512)
    (h0 : off 0 = ch.val) (h1 : off 1 = 0) (h2 : off 2 = 0) (r q : Fin 512) :
    chan (F := Ideal) x off h (ix2 r q) = x (ix4 (0 : Fin 1) ch r q) := by
  unfold chan
  refine (shapeCast_apply _ shapeCasts_S1x512x512_S512x512 (ix2 r q) (ix3 (0 : Fin 1) r q) ?_).trans ?_
  · rw [Shape.rowMajor_val_three, Shape.rowMajor_val_two]
    show (0 * 512 + r.val) * 512 + q.val = r.val * 512 + q.val
    omega
  refine (extractStridedSlice_apply off _ h (ix3 (0 : Fin 1) r q) (ix3 ch r q) ?_).trans ?_
  · intro a
    match a with
    | ⟨0, _⟩ => show ch.val = off 0 + 0; omega
    | ⟨1, _⟩ => show r.val = off 1 + r.val; omega
    | ⟨2, _⟩ => show q.val = off 2 + q.val; omega
  refine shapeCast_apply x shapeCasts_S1x3x512x512_S3x512x512 (ix3 ch r q) (ix4 (0 : Fin 1) ch r q) ?_
  rw [Shape.rowMajor_val_four, Shape.rowMajor_val_three]
  show ((0 * 3 + ch.val) * 512 + r.val) * 512 + q.val = (ch.val * 512 + r.val) * 512 + q.val
  omega

/-- The luma plane at (r, q) is the pixel's luma. -/
theorem lumaV_apply (x : Vec Ideal S1x3x512x512 .f32) (r q : Fin 512) :
    lumaV (F := Ideal) x (ix2 r q) = blkLuma x r q := by
  show FloatOps.addf (FloatOps.addf (FloatOps.mulf _ (chan (F := Ideal) x ![0, 0, 0] _ (ix2 r q))) (FloatOps.mulf _ (chan (F := Ideal) x ![1, 0, 0] _ (ix2 r q))))
      (FloatOps.mulf _ (chan (F := Ideal) x ![2, 0, 0] _ (ix2 r q))) = _
  rw [chan_apply x 0 ![0, 0, 0] slices_S3x512x512_o0_0_0_S1x512x512 rfl rfl rfl r q,
    chan_apply x 1 ![1, 0, 0] slices_S3x512x512_o1_0_0_S1x512x512 rfl rfl rfl r q,
    chan_apply x 2 ![2, 0, 0] slices_S3x512x512_o2_0_0_S1x512x512 rfl rfl rfl r q]
  rfl

/-- The bin plane at a pixel is the bin of the luma there. -/
theorem binsV_apply (il : FVec Ideal S512x512 .f32) (i : S512x512.Idx) :
    binsV (F := Ideal) il i = Cert.Hist.binOf (F := Ideal) (il i) := rfl

/-! ## A total is the double sum over rows and columns -/

/-- The total of a plane, at the one index of its 1 x 1 result, is the sum of all its entries. -/
theorem total_apply (v : FVec Ideal S512x512 .f32) :
    total (F := Ideal) v (ix2 (0 : Fin 1) (0 : Fin 1)) = ∑ r : Fin 512, ∑ q : Fin 512, v (ix2 r q) := by
  unfold total
  refine (shapeCast_apply _ shapeCasts_S1_S1x1 (ix2 (0 : Fin 1) (0 : Fin 1)) (ix1 (0 : Fin 1)) ?_).trans ?_
  · rw [Shape.rowMajor_val_one, Shape.rowMajor_val_two]
    rfl
  refine (Ideal.multiReduction_add_single (φ := .f32) _ _ reduces_S512x1_S1 _ _ (ix1 (0 : Fin 1))).trans ?_
  show ∑ r : Fin 512, _ = _
  refine Finset.sum_congr rfl fun r _ => ?_
  refine (shapeCast_apply _ shapeCasts_S512_S512x1 _ (ix1 r) ?_).trans ?_
  · rw [Shape.rowMajor_val_one, Shape.rowMajor_val_two]
    have e0 : (reduces_S512x1_S1.lift (ix1 (0 : Fin 1)) r 0).val = r.val := rfl
    have e1 : (reduces_S512x1_S1.lift (ix1 (0 : Fin 1)) r 1).val = 0 := rfl
    rw [e0, e1]
    show r.val = r.val * 1 + 0
    omega
  refine (Ideal.multiReduction_add_single (φ := .f32) v _ reduces_S512x512_S512 _ _ (ix1 r)).trans ?_
  show ∑ q : Fin 512, _ = _
  refine Finset.sum_congr rfl fun q _ => congrArg v ?_
  funext a
  match a with
  | ⟨0, _⟩ => rfl
  | ⟨1, _⟩ => rfl

/-! ## The cells -/

/-- A comparison for equality of two equal words is the bit 1 … -/
theorem cmpi_eq_of_eq {x y : BitVec 32} (h : x = y) : IntOp.cmpi .eq x y = 1#1 := by
  subst h
  simp [IntOp.cmpi]

/-- … and of two different words the bit 0. -/
theorem cmpi_eq_of_ne {x y : BitVec 32} (h : ¬x = y) : IntOp.cmpi .eq x y = 0#1 := by
  have e : (x == y) = false := beq_eq_false_iff_ne.mpr h
  show BitVec.ofBool (x == y) = 0#1
  rw [e]
  rfl

/-- The count cell of bin b is the number of pixels whose bin is b. -/
theorem cntCell_apply (bins : IVec S512x512 32) (b : BitVec 32) :
    cntCell (F := Ideal) bins b (ix2 (0 : Fin 1) (0 : Fin 1))
      = ∑ r : Fin 512, ∑ q : Fin 512, (if bins (ix2 r q) = b then (1 : EReal) else 0) := by
  unfold cntCell
  rw [total_apply]
  refine Finset.sum_congr rfl fun r _ => Finset.sum_congr rfl fun q _ => ?_
  show (((((IntOp.cmpi .eq (bins (ix2 r q)) b).setWidth 32).toInt : ℤ) : ℝ) : EReal) = _
  by_cases h : bins (ix2 r q) = b
  · rw [if_pos h, cmpi_eq_of_eq h]
    norm_num
  · rw [if_neg h, cmpi_eq_of_ne h]
    norm_num

/-- The sum cell of bin b for a plane of values is the sum of the plane over the pixels whose bin is b. -/
theorem sumCell_apply (v : FVec Ideal S512x512 .f32) (bins : IVec S512x512 32) (b : BitVec 32) :
    sumCell (F := Ideal) v bins b (ix2 (0 : Fin 1) (0 : Fin 1))
      = ∑ r : Fin 512, ∑ q : Fin 512, (if bins (ix2 r q) = b then v (ix2 r q) else 0) := by
  unfold sumCell
  rw [total_apply]
  refine Finset.sum_congr rfl fun r _ => Finset.sum_congr rfl fun q _ => ?_
  show Scalar.select (IntOp.cmpi .eq (bins (ix2 r q)) b) (v (ix2 r q)) (Ideal.ofBits .f32 0x00000000#32) = _
  rw [Ideal.ofBits_zero_f32]
  by_cases h : bins (ix2 r q) = b
  · rw [if_pos h, cmpi_eq_of_eq h, select_one]
  · rw [if_neg h, cmpi_eq_of_ne h, select_zero]

/-! ## The rows of cells, the update and the step -/

/-- A row of sixteen cells read at column b is the cell of bin b. -/
theorem row_apply (f : BitVec 32 → FVec Ideal S1x1 .f32) (b : Fin 16) :
    row (F := Ideal) f (ix2 (0 : Fin 1) b) = f (BitVec.ofNat 32 b.val) (ix2 (0 : Fin 1) (0 : Fin 1)) := by
  unfold row
  exact concatenate_ofFn_unit_apply (t := S1x16) (s₁ := S1x1) (1 : Fin 2) (N := 16) (fun n => f (BitVec.ofNat 32 n.val))
    concatenates_S1x1_S1x1_S1x1_S1x1_S1x1_S1x1_S1x1_S1x1_S1x1_S1x1_S1x1_S1x1_S1x1_S1x1_S1x1_S1x1_S1x16_d1 rfl rfl
    (ix2 (0 : Fin 1) b) b rfl (ix2 (0 : Fin 1) (0 : Fin 1))
    (fun c hc => match c, hc with
      | ⟨0, _⟩, _ => rfl
      | ⟨1, _⟩, hc => absurd rfl hc)

/-- The three rows of the update, by row number: the counts, the first block's luma sums, the second block's. -/
def updRow (x0 x1 x2 : Vec Ideal S1x3x512x512 .f32) : Fin 3 → FVec Ideal S1x16 .f32
  | ⟨0, _⟩ => row (F := Ideal) (cntCell (binsV (lumaV x2)))
  | ⟨1, _⟩ => row (F := Ideal) (sumCell (lumaV x0) (binsV (lumaV x2)))
  | ⟨2, _⟩ => row (F := Ideal) (sumCell (lumaV x1) (binsV (lumaV x2)))

/-- The update at (k, b) is its k-th row at column b. -/
theorem upd_apply (x0 x1 x2 : Vec Ideal S1x3x512x512 .f32) (k : Fin 3) (b : Fin 16) :
    upd (F := Ideal) x0 x1 x2 (ix2 k b) = updRow x0 x1 x2 k (ix2 (0 : Fin 1) b) := by
  unfold upd
  exact concatenate_ofFn_unit_apply (t := S3x16) (s₁ := S1x16) (0 : Fin 2) (N := 3) (updRow x0 x1 x2)
    concatenates_S1x16_S1x16_S1x16_S3x16_d0 rfl rfl (ix2 k b) k rfl (ix2 (0 : Fin 1) b)
    (fun c hc => match c, hc with
      | ⟨0, _⟩, hc => absurd rfl hc
      | ⟨1, _⟩, _ => rfl)

/-- The block the body leaves, at (0, k, b): what it found there plus the update at (k, b). -/
theorem step_apply (acc : Vec Ideal S1x3x16 .f32) (x0 x1 x2 : Vec Ideal S1x3x512x512 .f32) (k : Fin 3) (b : Fin 16) :
    step (F := Ideal) acc x0 x1 x2 (ix3 (0 : Fin 1) k b) = acc (ix3 (0 : Fin 1) k b) + upd (F := Ideal) x0 x1 x2 (ix2 k b) := by
  unfold step
  refine (shapeCast_apply _ shapeCasts_S3x16_S1x3x16 (ix3 (0 : Fin 1) k b) (ix2 k b) ?_).trans ?_
  · rw [Shape.rowMajor_val_two, Shape.rowMajor_val_three]
    show k.val * 16 + b.val = (0 * 3 + k.val) * 16 + b.val
    omega
  show FloatOps.addf (shapeCast S3x16 acc shapeCasts_S1x3x16_S3x16 (ix2 k b)) (upd (F := Ideal) x0 x1 x2 (ix2 k b)) = _
  rw [shapeCast_apply acc shapeCasts_S1x3x16_S3x16 (ix2 k b) (ix3 (0 : Fin 1) k b) (by
    rw [Shape.rowMajor_val_two, Shape.rowMajor_val_three]
    show (0 * 3 + k.val) * 16 + b.val = k.val * 16 + b.val
    omega)]
  rfl

/-! ## The three statistics -/

/-- The count row: the entry found plus the number of the third block's pixels in bin b. -/
theorem step_cnt (acc : Vec Ideal S1x3x16 .f32) (x0 x1 x2 : Vec Ideal S1x3x512x512 .f32) (b : Fin 16) :
    step (F := Ideal) acc x0 x1 x2 (ix3 (0 : Fin 1) (0 : Fin 3) b)
      = acc (ix3 (0 : Fin 1) (0 : Fin 3) b) + ∑ r : Fin 512, ∑ q : Fin 512,
          (if Cert.Hist.binOf (F := Ideal) (blkLuma x2 r q) = BitVec.ofNat 32 b.val then (1 : EReal) else 0) := by
  rw [step_apply, upd_apply]
  show _ + row (F := Ideal) (cntCell (binsV (lumaV x2))) (ix2 (0 : Fin 1) b) = _
  rw [row_apply, cntCell_apply]
  refine congrArg (acc (ix3 (0 : Fin 1) (0 : Fin 3) b) + ·) ?_
  refine Finset.sum_congr rfl fun r _ => Finset.sum_congr rfl fun q _ => ?_
  rw [binsV_apply, lumaV_apply]

/-- The first sum row: the entry found plus the first block's luma summed over the third block's pixels in bin b. -/
theorem step_sum0 (acc : Vec Ideal S1x3x16 .f32) (x0 x1 x2 : Vec Ideal S1x3x512x512 .f32) (b : Fin 16) :
    step (F := Ideal) acc x0 x1 x2 (ix3 (0 : Fin 1) (1 : Fin 3) b)
      = acc (ix3 (0 : Fin 1) (1 : Fin 3) b) + ∑ r : Fin 512, ∑ q : Fin 512,
          (if Cert.Hist.binOf (F := Ideal) (blkLuma x2 r q) = BitVec.ofNat 32 b.val then blkLuma x0 r q else 0) := by
  rw [step_apply, upd_apply]
  show _ + row (F := Ideal) (sumCell (lumaV x0) (binsV (lumaV x2))) (ix2 (0 : Fin 1) b) = _
  rw [row_apply, sumCell_apply]
  refine congrArg (acc (ix3 (0 : Fin 1) (1 : Fin 3) b) + ·) ?_
  refine Finset.sum_congr rfl fun r _ => Finset.sum_congr rfl fun q _ => ?_
  rw [binsV_apply, lumaV_apply x2, lumaV_apply x0]

/-- The second sum row: the entry found plus the second block's luma summed over the third block's pixels in bin b. -/
theorem step_sum1 (acc : Vec Ideal S1x3x16 .f32) (x0 x1 x2 : Vec Ideal S1x3x512x512 .f32) (b : Fin 16) :
    step (F := Ideal) acc x0 x1 x2 (ix3 (0 : Fin 1) (2 : Fin 3) b)
      = acc (ix3 (0 : Fin 1) (2 : Fin 3) b) + ∑ r : Fin 512, ∑ q : Fin 512,
          (if Cert.Hist.binOf (F := Ideal) (blkLuma x2 r q) = BitVec.ofNat 32 b.val then blkLuma x1 r q else 0) := by
  rw [step_apply, upd_apply]
  show _ + row (F := Ideal) (sumCell (lumaV x1) (binsV (lumaV x2))) (ix2 (0 : Fin 1) b) = _
  rw [row_apply, sumCell_apply]
  refine congrArg (acc (ix3 (0 : Fin 1) (2 : Fin 3) b) + ·) ?_
  refine Finset.sum_congr rfl fun r _ => Finset.sum_congr rfl fun q _ => ?_
  rw [binsV_apply, lumaV_apply x2, lumaV_apply x1]

end Cert.KernelIdeal.BodyAt

end
-- ==== Proof.KernelStats.lean ====
/-
  The kernel's three statistics, at the ideal values, are the specification's.

  Point t's blocks are image t of the three batches, so a point's update of statistic k at bin b is the sum over the
  pixels of image t that fall in bin b (by the third batch's luma) of the statistic's value there. The running value after
  point n is the sum of the updates of the points of n's group up to n (induction on the point); a group's row of the result is
  the running value after its last point, the sum over the group's eight images; the host's sum of the two rows is the sum
  over all sixteen images. Extended-real addition is commutative and associative and zero is its identity, so nothing
  about finiteness is used.
-/
import proofs.«133189_j16312285790284_1_alg».proof.Proof.KernelRun
import proofs.«133189_j16312285790284_1_alg».proof.Proof.BodyAt
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.Hist

/-- One image's share of a bin's sum: the sum over the pixels of image s in bin b (zero past the last image). -/
def pointSum (v : Fin 16 → Fin 512 → Fin 512 → EReal) (bins : Fin 16 → Fin 512 → Fin 512 → BitVec 32) (b : BitVec 32) (s : ℕ) : EReal :=
  if hs : s < 16 then ∑ r : Fin 512, ∑ q : Fin 512, (if bins ⟨s, hs⟩ r q = b then v ⟨s, hs⟩ r q else 0) else 0

/-- A bin's sum is the sum of the sixteen images' shares. -/
theorem binSum_eq_range (v : Fin 16 → Fin 512 → Fin 512 → EReal) (bins : Fin 16 → Fin 512 → Fin 512 → BitVec 32) (b : BitVec 32) :
    binSum v bins b = ∑ s ∈ Finset.range 16, pointSum v bins b s := by
  unfold binSum
  rw [← Fin.sum_univ_eq_sum_range (fun s => pointSum v bins b s) 16]
  refine Finset.sum_congr rfl fun n _ => ?_
  unfold pointSum
  rw [dif_pos n.isLt]

end Cert.Hist

namespace Cert.KernelIdeal.Stats

open Cert.KernelIdeal Cert.KernelIdeal.Gen Cert.KernelIdeal.Body Cert.KernelIdeal.RunValue Cert.KernelIdeal.BodyAt Cert.Hist

variable (m : (ℓ : Loc nD τ sig) → Buf (Elt Ideal) ℓ)

/-- The three argument arrays on a core. -/
abbrev arr0 (c : Dev nD) : Vec Ideal S16x3x512x512 .f32 := m ((c.tc : Thread nD τ).loc main_arg0)
abbrev arr1 (c : Dev nD) : Vec Ideal S16x3x512x512 .f32 := m ((c.tc : Thread nD τ).loc main_arg1)
abbrev arr2 (c : Dev nD) : Vec Ideal S16x3x512x512 .f32 := m ((c.tc : Thread nD τ).loc main_arg2)

/-- Point t as an image number. -/
def img (t : Fin cfg0.N) : Fin 16 := ⟨t.val, (show cfg0.N = 16 from N_0) ▸ t.isLt⟩

/-- Each input window's block at point t is image t, whole. -/
theorem in_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0))

/-- Entry (0, ch, r, q) of the first batch's block at point t is entry (t, ch, r, q) of the first batch. -/
theorem blk0_apply (c : Dev nD) (t : Fin cfg0.N) (ch : Fin 3) (r q : Fin 512) :
    blk0 m c t (ix4 (0 : Fin 1) ch r q) = arr0 m c (ix4 (img t) ch r q) := by
  obtain ⟨⟨i0, i1, i2, i3⟩, _, _⟩ := in_index t
  unfold blk0 iblk
  rw [View.read_apply]
  show V m c main_arg0 _ = m ((c.tc : Thread nD τ).loc main_arg0) _
  unfold V
  congr 1
  funext a
  apply Fin.ext
  match a with
  | ⟨0, _⟩ => show win0_0.index t 0 * 1 + 1 * 0 = t.val; rw [i0]; omega
  | ⟨1, _⟩ => show win0_0.index t 1 * 3 + 1 * ch.val = ch.val; rw [i1]; omega
  | ⟨2, _⟩ => show win0_0.index t 2 * 512 + 1 * r.val = r.val; rw [i2]; omega
  | ⟨3, _⟩ => show win0_0.index t 3 * 512 + 1 * q.val = q.val; rw [i3]; omega

theorem blk1_apply (c : Dev nD) (t : Fin cfg0.N) (ch : Fin 3) (r q : Fin 512) :
    blk1 m c t (ix4 (0 : Fin 1) ch r q) = arr1 m c (ix4 (img t) ch r q) := by
  obtain ⟨_, ⟨i0, i1, i2, i3⟩, _⟩ := in_index t
  unfold blk1 iblk
  rw [View.read_apply]
  show V m c main_arg1 _ = m ((c.tc : Thread nD τ).loc main_arg1) _
  unfold V
  congr 1
  funext a
  apply Fin.ext
  match a with
  | ⟨0, _⟩ => show win0_1.index t 0 * 1 + 1 * 0 = t.val; rw [i0]; omega
  | ⟨1, _⟩ => show win0_1.index t 1 * 3 + 1 * ch.val = ch.val; rw [i1]; omega
  | ⟨2, _⟩ => show win0_1.index t 2 * 512 + 1 * r.val = r.val; rw [i2]; omega
  | ⟨3, _⟩ => show win0_1.index t 3 * 512 + 1 * q.val = q.val; rw [i3]; omega

theorem blk2_apply (c : Dev nD) (t : Fin cfg0.N) (ch : Fin 3) (r q : Fin 512) :
    blk2 m c t (ix4 (0 : Fin 1) ch r q) = arr2 m c (ix4 (img t) ch r q) := by
  obtain ⟨_, _, ⟨i0, i1, i2, i3⟩⟩ := in_index t
  unfold blk2 iblk
  rw [View.read_apply]
  show V m c main_arg2 _ = m ((c.tc : Thread nD τ).loc main_arg2) _
  unfold V
  congr 1
  funext a
  apply Fin.ext
  match a with
  | ⟨0, _⟩ => show win0_2.index t 0 * 1 + 1 * 0 = t.val; rw [i0]; omega
  | ⟨1, _⟩ => show win0_2.index t 1 * 3 + 1 * ch.val = ch.val; rw [i1]; omega
  | ⟨2, _⟩ => show win0_2.index t 2 * 512 + 1 * r.val = r.val; rw [i2]; omega
  | ⟨3, _⟩ => show win0_2.index t 3 * 512 + 1 * q.val = q.val; rw [i3]; omega

/-- A block's pixel luma is the batch's pixel luma at image t. -/
theorem luma0_blk (c : Dev nD) (t : Fin cfg0.N) (r q : Fin 512) : blkLuma (blk0 m c t) r q = lumaAt (F := Ideal) (arr0 m c) (img t) r q := by
  unfold blkLuma lumaAt; rw [blk0_apply, blk0_apply, blk0_apply]
theorem luma1_blk (c : Dev nD) (t : Fin cfg0.N) (r q : Fin 512) : blkLuma (blk1 m c t) r q = lumaAt (F := Ideal) (arr1 m c) (img t) r q := by
  unfold blkLuma lumaAt; rw [blk1_apply, blk1_apply, blk1_apply]
theorem luma2_blk (c : Dev nD) (t : Fin cfg0.N) (r q : Fin 512) : blkLuma (blk2 m c t) r q = lumaAt (F := Ideal) (arr2 m c) (img t) r q := by
  unfold blkLuma lumaAt; rw [blk2_apply, blk2_apply, blk2_apply]

/-- An image's share at point t, spelt over the point's blocks. -/
theorem pointSum_at (v : Fin 16 → Fin 512 → Fin 512 → EReal) (c : Dev nD) (t : Fin cfg0.N) (b : BitVec 32)
    (w : Fin 512 → Fin 512 → EReal) (hw : ∀ r q, w r q = v (img t) r q) :
    (∑ r : Fin 512, ∑ q : Fin 512, (if binOf (F := Ideal) (blkLuma (blk2 m c t) r q) = b then w r q else 0))
      = pointSum v (binAt (F := Ideal) (arr2 m c)) b t.val := by
  have ht : t.val < 16 := (img t).isLt
  unfold pointSum
  rw [dif_pos ht]
  refine Finset.sum_congr rfl fun r _ => Finset.sum_congr rfl fun q _ => ?_
  rw [luma2_blk, hw]
  rfl

/-- The running value of statistic k at bin b after point n: the shares of the images of n's group up to n. -/
theorem running_apply (c : Dev nD) (k : Fin 3) (v : Fin 16 → Fin 512 → Fin 512 → EReal) (b : Fin 16)
    (hstep : ∀ (acc : Vec Ideal S1x3x16 .f32) (t : Fin cfg0.N),
      step (F := Ideal) acc (blk0 m c t) (blk1 m c t) (blk2 m c t) (ix3 (0 : Fin 1) k b)
        = acc (ix3 (0 : Fin 1) k b) + pointSum v (binAt (F := Ideal) (arr2 m c)) (BitVec.ofNat 32 b.val) t.val) :
    ∀ (n : ℕ) (h : n < cfg0.N), running m c n h (ix3 (0 : Fin 1) k b)
      = ∑ s ∈ Finset.range (n % 8 + 1), pointSum v (binAt (F := Ideal) (arr2 m c)) (BitVec.ofNat 32 b.val) (n - n % 8 + s)
  | 0, h => by
    unfold running
    rw [hstep]
    show Ideal.ofBits .f32 0x00000000#32 + _ = _
    rw [Ideal.ofBits_zero_f32, zero_add]
    simp
  | n + 1, h => by
    unfold running
    by_cases h0 : (n + 1) % 8 = 0
    · rw [if_pos h0, hstep]
      show Ideal.ofBits .f32 0x00000000#32 + _ = _
      rw [Ideal.ofBits_zero_f32, zero_add, h0]
      simp
    · rw [if_neg h0, hstep, running_apply c k v b hstep n (Nat.lt_of_succ_lt h)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-- A statistic's row at bin b: the two groups' entries added (the host's sum starts from zero). -/
theorem statRow_apply (A : Vec Ideal S2x3x16 .f32) (k : Fin 3) (off : Fin 2 → Nat) (h : S3x16.Slices off S1x16)
    (ho0 : off 0 = k.val) (ho1 : off 1 = 0) (b : Fin 16) :
    statRow (F := Ideal) A off h (ix1 b) = A (ix3 (0 : Fin 2) k b) + A (ix3 (1 : Fin 2) k b) := by
  unfold statRow
  refine (shapeCast_apply _ shapeCasts_S1x16_S16 (ix1 b) (ix2 (0 : Fin 1) b) ?_).trans ?_
  · rw [Shape.rowMajor_val_two, Shape.rowMajor_val_one]
    show 0 * 16 + b.val = b.val
    omega
  refine (extractStridedSlice_apply off _ h (ix2 (0 : Fin 1) b) (ix2 k b) ?_).trans ?_
  · intro a
    match a with
    | ⟨0, _⟩ => show k.val = off 0 + 0; omega
    | ⟨1, _⟩ => show b.val = off 1 + b.val; omega
  unfold summed
  simp only [Host.reduceAdd, Ideal.hostReduceAdd_def]
  rw [Ideal.hostReduceAdd_single reducesTo_S2x3x16_S3x16_d0 (by decide : S2x3x16.Reduces [0] S3x16) A _ (ix2 k b)]
  show Ideal.ofBits .f32 0x00000000#32 + ∑ g : Fin 2, _ = _
  rw [Ideal.ofBits_zero_f32, zero_add, Fin.sum_univ_two]
  congr 1 <;> (congr 1; funext a; match a with | ⟨0, _⟩ => rfl | ⟨1, _⟩ => rfl | ⟨2, _⟩ => rfl)

/-- A statistic of the result array is the specification's sum over all sixteen images. -/
theorem stat_eq (c : Dev nD) (k : Fin 3) (v : Fin 16 → Fin 512 → Fin 512 → EReal)
    (hstep : ∀ (b : Fin 16) (acc : Vec Ideal S1x3x16 .f32) (t : Fin cfg0.N),
      step (F := Ideal) acc (blk0 m c t) (blk1 m c t) (blk2 m c t) (ix3 (0 : Fin 1) k b)
        = acc (ix3 (0 : Fin 1) k b) + pointSum v (binAt (F := Ideal) (arr2 m c)) (BitVec.ofNat 32 b.val) t.val)
    (off : Fin 2 → Nat) (h : S3x16.Slices off S1x16) (ho0 : off 0 = k.val) (ho1 : off 1 = 0) :
    statRow (F := Ideal) (result m c) off h = fun j => binSum v (binAt (F := Ideal) (arr2 m c)) (BitVec.ofNat 32 (j 0).val) := by
  have hN : cfg0.N = 16 := N_0
  funext j
  obtain ⟨b, rfl⟩ : ∃ b : Fin 16, j = ix1 b := ⟨j 0, eq_ix1 j⟩
  rw [statRow_apply (result m c) k off h ho0 ho1 b, binSum_eq_range]
  have r0 : result m c (ix3 (0 : Fin 2) k b)
      = ∑ s ∈ Finset.range 8, pointSum v (binAt (F := Ideal) (arr2 m c)) (BitVec.ofNat 32 b.val) s := by
    refine (running_apply m c k v b (hstep b) 7 (by rw [hN]; omega)).trans ?_
    show ∑ s ∈ Finset.range 8, pointSum v _ _ (0 + s) = _
    simp only [Nat.zero_add]
  have r1 : result m c (ix3 (1 : Fin 2) k b)
      = ∑ s ∈ Finset.range 8, pointSum v (binAt (F := Ideal) (arr2 m c)) (BitVec.ofNat 32 b.val) (8 + s) :=
    running_apply m c k v b (hstep b) 15 (by rw [hN]; omega)
  rw [r0, r1]
  show _ = ∑ s ∈ Finset.range (8 + 8), _
  rw [Finset.sum_range_add]

/-- The kernel's count row is the specification's counts, -/
theorem kernel_counts (c : Dev nD) :
    statRow (F := Ideal) (result m c) ![0, 0] slices_S3x16_S1x16_0_0 = Cert.Hist.counts (arr2 m c) :=
  stat_eq m c 0 (fun _ _ _ => 1)
    (fun b acc t => (step_cnt acc (blk0 m c t) (blk1 m c t) (blk2 m c t) b).trans
      (congrArg (fun z => acc (ix3 (0 : Fin 1) (0 : Fin 3) b) + z)
        (pointSum_at m (fun _ _ _ => 1) c t (BitVec.ofNat 32 b.val) (fun _ _ => 1) (fun _ _ => rfl))))
    ![0, 0] slices_S3x16_S1x16_0_0 rfl rfl

/-- its first sum row the first batch's luma sums, -/
theorem kernel_sums0 (c : Dev nD) :
    statRow (F := Ideal) (result m c) ![1, 0] slices_S3x16_S1x16_1_0 = Cert.Hist.lumaSums (arr0 m c) (arr2 m c) :=
  stat_eq m c 1 (lumaAt (F := Ideal) (arr0 m c))
    (fun b acc t => (step_sum0 acc (blk0 m c t) (blk1 m c t) (blk2 m c t) b).trans
      (congrArg (fun z => acc (ix3 (0 : Fin 1) (1 : Fin 3) b) + z)
        (pointSum_at m (lumaAt (F := Ideal) (arr0 m c)) c t (BitVec.ofNat 32 b.val) (fun r q => blkLuma (blk0 m c t) r q) (fun r q => luma0_blk m c t r q))))
    ![1, 0] slices_S3x16_S1x16_1_0 rfl rfl

/-- and its second sum row the second batch's. -/
theorem kernel_sums1 (c : Dev nD) :
    statRow (F := Ideal) (result m c) ![2, 0] slices_S3x16_S1x16_2_0 = Cert.Hist.lumaSums (arr1 m c) (arr2 m c) :=
  stat_eq m c 2 (lumaAt (F := Ideal) (arr1 m c))
    (fun b acc t => (step_sum1 acc (blk0 m c t) (blk1 m c t) (blk2 m c t) b).trans
      (congrArg (fun z => acc (ix3 (0 : Fin 1) (2 : Fin 3) b) + z)
        (pointSum_at m (lumaAt (F := Ideal) (arr1 m c)) c t (BitVec.ofNat 32 b.val) (fun r q => blkLuma (blk1 m c t) r q) (fun r q => luma1_blk m c t r q))))
    ![2, 0] slices_S3x16_S1x16_2_0 rfl rfl

end Cert.KernelIdeal.Stats

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.LibScatterFlat.lean ====
/-
  General facts about the host's accumulating scatter into a one-dimensional operand, and about 32-bit words:
  for an [N] operand, an [n, 1] column of scatter indices and [n] updates, update j lands on operand index i exactly when
  j's scatter index, read signed, is i (both directions: an index outside [0, N) lands nowhere); and a 32-bit word reads a
  number below sixteen as a signed number exactly when it is that number's word.
-/
import Idealize.ShloMosaic.PureOps.Ideal
import Idealize.ShloMosaic.Lib.ValueIdx
import proofs.«133189_j16312285790284_1_alg».proof.Proof.LibGS

noncomputable section

namespace Cert.LibScatterFlat

open Idealize.ShloMosaic Idealize.ShloMosaic.ValueIdx

/-! ## Where a one-dimensional scatter lands -/

/-- Where a one-dimensional scatter lands: for an [N] operand, an [n, 1] column of scatter indices and [n] updates (no
    window axis, the operand's only axis inserted and named by the scatter map, the index vector on axis 1), update j
    lands on operand index i exactly when j's scatter index, read signed, is i. -/
theorem scatter_flat_lands_iff {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (j : (⟨1, ![n]⟩ : Shape).Idx) (i : (⟨1, ![N]⟩ : Shape).Idx) :
    d.resultIdx? j idx = some i ↔ (idx (ix2 (j 0) (0 : Fin 1))).toInt = ((i 0).val : Int) := by
  have hsk : d.sKept = [] := by
    show Shape.kept _ d.insertedWindowDims = []
    rw [hins]; rfl
  have hus : d.uScatter = [0] := by
    show Shape.kept _ d.updateWindowDims = [0]
    rw [huw]; rfl
  have hw0 : d.window j (0 : Fin 1) = 0 := by
    unfold ScatterDims.window
    rw [dif_neg (by rw [hsk]; simp)]
  have hs0 : d.start j idx (0 : Fin 1) = (idx (ix2 (j 0) (0 : Fin 1))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [Cert.LibGS.getElem_of_eq_singleton hus]
    | ⟨1, _⟩ =>
      unfold ScatterDims.siIdx
      rw [dif_pos (by rw [hivd])]
      apply Fin.ext
      show List.idxOf (0 : Fin 1) d.scatterDimsToOperandDims = 0
      rw [hsd]; simp
  have hiN : (i 0).val < N := (i 0).isLt
  unfold ScatterDims.resultIdx?
  split
  · rename_i hall
    constructor
    · intro h
      have hi := Option.some.inj h
      subst hi
      have h0 := hall (0 : Fin 1)
      rw [hs0, hw0] at h0
      show _ = (((d.start j idx (0 : Fin 1) + d.window j (0 : Fin 1)).toNat : Nat) : Int)
      rw [hs0, hw0]
      omega
    · intro h
      congr 1
      funext a
      match a with
      | ⟨0, _⟩ =>
        apply Fin.ext
        show (d.start j idx (0 : Fin 1) + d.window j (0 : Fin 1)).toNat = (i 0).val
        rw [hs0, hw0, h]
        omega
  · rename_i hnot
    constructor
    · intro h
      exact absurd h (by simp)
    · intro h
      exfalso
      apply hnot
      intro a
      match a with
      | ⟨0, _⟩ =>
        show 0 ≤ d.start j idx (0 : Fin 1) + d.window j (0 : Fin 1) ∧ d.start j idx (0 : Fin 1) + d.window j (0 : Fin 1) < (N : Int)
        rw [hs0, hw0, h]
        omega

/-! ## Words -/

/-- A 32-bit word reads b < 16 as a signed number exactly when it is the word of b. -/
theorem toInt_eq_iff_eq_ofNat (w : BitVec 32) (b : Nat) (hb : b < 16) : w.toInt = (b : Int) ↔ w = BitVec.ofNat 32 b := by
  have hw : w.toNat < 4294967296 := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

end Cert.LibScatterFlat

end
-- ==== Proof.RefStats.lean ====
/-
  The reference's three accumulating scatters, read as plain sums.

  Each scatter adds, into a vector of seventeen zeros, the flat update vector (ones, or a batch's luma) at the slot the
  pixel's bin word names; the first sixteen slots are kept. At the ideal values the slot b therefore holds the sum, over
  every pixel whose bin word is b, of that pixel's update: the count of the bin, or the sum of the batch's luma over it.
-/
import proofs.«133189_j16312285790284_1_alg».proof.Proof.RefRead
import proofs.«133189_j16312285790284_1_alg».proof.Proof.Spec
import proofs.«133189_j16312285790284_1_alg».proof.Proof.LibGS
import proofs.«133189_j16312285790284_1_alg».proof.Proof.LibScatterFlat

noncomputable section

namespace Cert.ReferenceIdeal.Stats

open Cert.ReferenceIdeal Cert.ReferenceIdeal.ReadP Idealize.ShloMosaic Idealize.ShloMosaic.ValueIdx Cert.LibScatterFlat
open scoped BigOperators

/-! ## The pixel of a flat index -/

/-- The image of flat pixel index j. -/
def pn (j : S4194304.Idx) : Fin 16 := ⟨(j 0).val / 262144, by have h0 : (j 0).val < 4194304 := (j 0).isLt; omega⟩
/-- The row of flat pixel index j. -/
def pr (j : S4194304.Idx) : Fin 512 := ⟨(j 0).val / 512 % 512, by omega⟩
/-- The column of flat pixel index j. -/
def pq (j : S4194304.Idx) : Fin 512 := ⟨(j 0).val % 512, by omega⟩

/-- Flat pixel indices are the triples (image, row, column), row-major. -/
def pixelEquiv : S4194304.Idx ≃ Fin 16 × Fin 512 × Fin 512 where
  toFun j := (pn j, pr j, pq j)
  invFun p := ix1 (⟨(p.1.val * 512 + p.2.1.val) * 512 + p.2.2.val, by
    have h0 := p.1.isLt; have h1 := p.2.1.isLt; have h2 := p.2.2.isLt; omega⟩ : Fin 4194304)
  left_inv j := by
    have h0 : (j 0).val < 4194304 := (j 0).isLt
    funext a
    match a with
    | ⟨0, _⟩ =>
      apply Fin.ext
      show ((j 0).val / 262144 * 512 + (j 0).val / 512 % 512) * 512 + (j 0).val % 512 = (j 0).val
      omega
  right_inv p := by
    obtain ⟨n, r, q⟩ := p
    have h0 := n.isLt; have h1 := r.isLt; have h2 := q.isLt
    refine Prod.ext (Fin.ext ?_) (Prod.ext (Fin.ext ?_) (Fin.ext ?_))
    · show ((n.val * 512 + r.val) * 512 + q.val) / 262144 = n.val
      omega
    · show ((n.val * 512 + r.val) * 512 + q.val) / 512 % 512 = r.val
      omega
    · show ((n.val * 512 + r.val) * 512 + q.val) % 512 = q.val
      omega

/-- A sum over the flat pixel indices is the triple sum over images, rows and columns. -/
theorem sum_pixels (f : Fin 16 → Fin 512 → Fin 512 → EReal) :
    ∑ j : S4194304.Idx, f (pn j) (pr j) (pq j) = ∑ n : Fin 16, ∑ r : Fin 512, ∑ q : Fin 512, f n r q := by
  rw [Fintype.sum_equiv pixelEquiv (fun j => f (pn j) (pr j) (pq j)) (fun p => f p.1 p.2.1 p.2.2) (fun _ => rfl)]
  rw [Fintype.sum_prod_type]
  refine Finset.sum_congr rfl fun n _ => ?_
  rw [Fintype.sum_prod_type]

/-! ## The reference's luma and bin word at a flat pixel -/

/-- An image-batch index with the coordinates of flat pixel j and channel c is the pixel's index. -/
theorem pix_idx (j : S4194304.Idx) (c : Fin 3) (i4 : S16x3x512x512.Idx) (h0 : (i4 0).val = (j 0).val / 262144) (h1 : (i4 1).val = c.val)
    (h2 : (i4 2).val = (j 0).val / 512 % 512) (h3 : (i4 3).val = (j 0).val % 512) : i4 = ix4 (pn j) c (pr j) (pq j) := by
  funext a
  match a with
  | ⟨0, _⟩ => exact Fin.ext h0
  | ⟨1, _⟩ => exact Fin.ext h1
  | ⟨2, _⟩ => exact Fin.ext h2
  | ⟨3, _⟩ => exact Fin.ext h3

/-- The first batch's flattened luma at flat pixel j is the luma of pixel j. -/
theorem luma0_at (x0 : (⟨S16x3x512x512, .f32⟩ : BufTy).Contents (Elt Ideal)) (j : S4194304.Idx) :
    val_main_v14 (F := Ideal) x0 j = Cert.Hist.lumaAt (F := Ideal) x0 (pn j) (pr j) (pq j) := by
  have hj : (j 0).val < 4194304 := (j 0).isLt
  rw [val_main_v14_apply, val_main_v13_apply, val_main_v8_apply, val_main_v3_apply, val_main_v7_apply, val_main_v12_apply,
    val_main_v2_apply, val_main_v6_apply, val_main_v11_apply, val_main_cst_apply, val_main_cst_0_apply, val_main_cst_1_apply,
    val_main_v1_apply, val_main_v5_apply, val_main_v10_apply, val_main_v0_apply, val_main_v4_apply, val_main_v9_apply]
  have e0 : idx_main_v0 (idx_main_v1 (idx_main_v14 j)) = ix4 (pn j) (0 : Fin 3) (pr j) (pq j) :=
    pix_idx j 0 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  have e1 : idx_main_v4 (idx_main_v5 (idx_main_v14 j)) = ix4 (pn j) (1 : Fin 3) (pr j) (pq j) :=
    pix_idx j 1 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  have e2 : idx_main_v9 (idx_main_v10 (idx_main_v14 j)) = ix4 (pn j) (2 : Fin 3) (pr j) (pq j) :=
    pix_idx j 2 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  rw [e0, e1, e2]
  rfl

/-- The second batch's flattened luma at flat pixel j is the luma of pixel j. -/
theorem luma1_at (x1 : (⟨S16x3x512x512, .f32⟩ : BufTy).Contents (Elt Ideal)) (j : S4194304.Idx) :
    val_main_v29 (F := Ideal) x1 j = Cert.Hist.lumaAt (F := Ideal) x1 (pn j) (pr j) (pq j) := by
  have hj : (j 0).val < 4194304 := (j 0).isLt
  rw [val_main_v29_apply, val_main_v28_apply, val_main_v23_apply, val_main_v18_apply, val_main_v22_apply, val_main_v27_apply,
    val_main_v17_apply, val_main_v21_apply, val_main_v26_apply, val_main_cst_2_apply, val_main_cst_3_apply, val_main_cst_4_apply,
    val_main_v16_apply, val_main_v20_apply, val_main_v25_apply, val_main_v15_apply, val_main_v19_apply, val_main_v24_apply]
  have e0 : idx_main_v15 (idx_main_v16 (idx_main_v29 j)) = ix4 (pn j) (0 : Fin 3) (pr j) (pq j) :=
    pix_idx j 0 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  have e1 : idx_main_v19 (idx_main_v20 (idx_main_v29 j)) = ix4 (pn j) (1 : Fin 3) (pr j) (pq j) :=
    pix_idx j 1 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  have e2 : idx_main_v24 (idx_main_v25 (idx_main_v29 j)) = ix4 (pn j) (2 : Fin 3) (pr j) (pq j) :=
    pix_idx j 2 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  rw [e0, e1, e2]
  rfl

/-- The third batch's flattened luma at flat pixel j is the luma of pixel j. -/
theorem luma2_at (x2 : (⟨S16x3x512x512, .f32⟩ : BufTy).Contents (Elt Ideal)) (j : S4194304.Idx) :
    val_main_v44 (F := Ideal) x2 j = Cert.Hist.lumaAt (F := Ideal) x2 (pn j) (pr j) (pq j) := by
  have hj : (j 0).val < 4194304 := (j 0).isLt
  rw [val_main_v44_apply, val_main_v43_apply, val_main_v38_apply, val_main_v33_apply, val_main_v37_apply, val_main_v42_apply,
    val_main_v32_apply, val_main_v36_apply, val_main_v41_apply, val_main_cst_5_apply, val_main_cst_6_apply, val_main_cst_7_apply,
    val_main_v31_apply, val_main_v35_apply, val_main_v40_apply, val_main_v30_apply, val_main_v34_apply, val_main_v39_apply]
  have e0 : idx_main_v30 (idx_main_v31 (idx_main_v44 j)) = ix4 (pn j) (0 : Fin 3) (pr j) (pq j) :=
    pix_idx j 0 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  have e1 : idx_main_v34 (idx_main_v35 (idx_main_v44 j)) = ix4 (pn j) (1 : Fin 3) (pr j) (pq j) :=
    pix_idx j 1 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  have e2 : idx_main_v39 (idx_main_v40 (idx_main_v44 j)) = ix4 (pn j) (2 : Fin 3) (pr j) (pq j) :=
    pix_idx j 2 _
      (by show (((j 0).val / 262144 * 512 + (j 0).val / 512 % 512) * 512 + (j 0).val % 512) / 262144 = (j 0).val / 262144; omega)
      rfl
      (by show (((j 0).val / 262144 * 512 + (j 0).val / 512 % 512) * 512 + (j 0).val % 512) / 512 % 512 = (j 0).val / 512 % 512; omega)
      (by show (((j 0).val / 262144 * 512 + (j 0).val / 512 % 512) * 512 + (j 0).val % 512) % 512 = (j 0).val % 512; omega)
  rw [e0, e1, e2]
  rfl

/-- The reference's bin word at flat pixel j is the bin of pixel j. -/
theorem bin_at (x2 : (⟨S16x3x512x512, .f32⟩ : BufTy).Contents (Elt Ideal)) (j : S4194304.Idx) :
    val_main_v52 (F := Ideal) x2 j = Cert.Hist.binAt (F := Ideal) x2 (pn j) (pr j) (pq j) := by
  rw [val_main_v52_apply, val_main_v51_apply, val_main_v49_apply, val_main_call1_v1_apply, val_main_call1_v0_apply, val_main_c_11_apply,
    val_main_call0_v4_apply, val_main_call0_v3_apply, val_main_c_9_apply, val_main_call0_v2_apply, val_main_call0_v1_apply,
    val_main_call0_v0_apply, val_main_c_apply, val_main_v48_apply, val_main_v47_apply, val_main_v46_apply, val_main_v45_apply,
    val_main_cst_8_apply, val_main_v50_apply, val_main_cst_10_apply, luma2_at]
  rfl

/-- The update vector of ones is one at every flat pixel. -/
theorem ones_at (j : S4194304.Idx) : val_main_v53 (F := Ideal) j = 1 := by
  rw [val_main_v53_apply, val_main_cst_12_apply]
  exact Ideal.ofBits_one_f32

/-- The three operands of zeros are zero at every slot. -/
theorem zeros54_at (i : S17.Idx) : val_main_v54 (F := Ideal) i = 0 := by
  rw [val_main_v54_apply, val_main_cst_13_apply]
  exact Ideal.ofBits_zero_f32
theorem zeros58_at (i : S17.Idx) : val_main_v58 (F := Ideal) i = 0 := by
  rw [val_main_v58_apply, val_main_cst_14_apply]
  exact Ideal.ofBits_zero_f32
theorem zeros62_at (i : S17.Idx) : val_main_v62 (F := Ideal) i = 0 := by
  rw [val_main_v62_apply, val_main_cst_15_apply]
  exact Ideal.ofBits_zero_f32

/-- The three columns of scatter indices hold, in row j, the bin of pixel j. -/
theorem idx55_at (x2 : (⟨S16x3x512x512, .f32⟩ : BufTy).Contents (Elt Ideal)) (j : S4194304.Idx) :
    val_main_v55 (F := Ideal) x2 (ix2 (j 0) (0 : Fin 1)) = Cert.Hist.binAt (F := Ideal) x2 (pn j) (pr j) (pq j) := by
  rw [val_main_v55_apply, ← bin_at]
  congr 1
  funext a
  match a with
  | ⟨0, _⟩ => rfl
theorem idx59_at (x2 : (⟨S16x3x512x512, .f32⟩ : BufTy).Contents (Elt Ideal)) (j : S4194304.Idx) :
    val_main_v59 (F := Ideal) x2 (ix2 (j 0) (0 : Fin 1)) = Cert.Hist.binAt (F := Ideal) x2 (pn j) (pr j) (pq j) := by
  rw [val_main_v59_apply, ← bin_at]
  congr 1
  funext a
  match a with
  | ⟨0, _⟩ => rfl
theorem idx63_at (x2 : (⟨S16x3x512x512, .f32⟩ : BufTy).Contents (Elt Ideal)) (j : S4194304.Idx) :
    val_main_v63 (F := Ideal) x2 (ix2 (j 0) (0 : Fin 1)) = Cert.Hist.binAt (F := Ideal) x2 (pn j) (pr j) (pq j) := by
  rw [val_main_v63_apply, ← bin_at]
  congr 1
  funext a
  match a with
  | ⟨0, _⟩ => rfl

/-! ## An accumulating scatter by bin words is a sum over bins -/

/-- Scattering into zeros an update vector whose entry at flat pixel j is v at pixel j, by a column of scatter indices
    whose row j holds the bin word of pixel j, leaves in slot b < 16 the sum of v over the pixels of bin b: update j lands
    on slot b exactly when its bin word is the word of b, and the flat sum is the triple sum over images, rows, columns. -/
theorem scatter_bins (x2 : (⟨S16x3x512x512, .f32⟩ : BufTy).Contents (Elt Ideal)) (z : FVec Ideal S17 .f32) (idx : IVec S4194304x1 32)
    (u : FVec Ideal S4194304 .f32) (v : Fin 16 → Fin 512 → Fin 512 → EReal)
    (hz : ∀ i, z i = 0)
    (hidx : ∀ j : S4194304.Idx, idx (ix2 (j 0) (0 : Fin 1)) = Cert.Hist.binAt (F := Ideal) x2 (pn j) (pr j) (pq j))
    (hu : ∀ j, u j = v (pn j) (pr j) (pq j)) (i : S17.Idx) (b : Nat) (hb : b < 16) (hi : (i 0).val = b) :
    Host.scatterAdd (F := Ideal) scatter_S17_S4194304x1_S4194304_n_0_0_1 z idx u i
      = Cert.Hist.binSum v (Cert.Hist.binAt (F := Ideal) x2) (BitVec.ofNat 32 b) := by
  rw [Cert.LibGS.scatterAdd_apply, hz, zero_add, Finset.sum_filter]
  unfold Cert.Hist.binSum
  rw [← sum_pixels (fun n r q => if Cert.Hist.binAt (F := Ideal) x2 n r q = BitVec.ofNat 32 b then v n r q else 0)]
  refine Finset.sum_congr rfl fun j _ => if_congr ?_ (hu j) rfl
  refine (scatter_flat_lands_iff _ rfl rfl rfl rfl idx j i).trans ?_
  rw [hidx, hi]
  exact toInt_eq_iff_eq_ofNat _ b hb

/-! ## The three statistics -/

/-- The reference's counts are the counts of the bins. -/
theorem ref_counts (x2 : (⟨S16x3x512x512, .f32⟩ : BufTy).Contents (Elt Ideal)) : val_main_v57 (F := Ideal) x2 = Cert.Hist.counts x2 := by
  funext j
  rw [val_main_v57_apply]
  exact scatter_bins x2 _ _ _ (fun _ _ _ => 1) zeros54_at (idx55_at x2) ones_at (idx_main_v57 j) (j 0).val (j 0).isLt rfl

/-- The reference's sums of the first batch's luma are the luma sums over the bins. -/
theorem ref_sums0 (x0 x2 : (⟨S16x3x512x512, .f32⟩ : BufTy).Contents (Elt Ideal)) : val_main_v61 (F := Ideal) x0 x2 = Cert.Hist.lumaSums x0 x2 := by
  funext j
  rw [val_main_v61_apply]
  exact scatter_bins x2 _ _ _ (Cert.Hist.lumaAt (F := Ideal) x0) zeros58_at (idx59_at x2) (luma0_at x0) (idx_main_v61 j) (j 0).val (j 0).isLt rfl

/-- The reference's sums of the second batch's luma are the luma sums over the bins. -/
theorem ref_sums1 (x1 x2 : (⟨S16x3x512x512, .f32⟩ : BufTy).Contents (Elt Ideal)) : val_main_v65 (F := Ideal) x1 x2 = Cert.Hist.lumaSums x1 x2 := by
  funext j
  rw [val_main_v65_apply]
  exact scatter_bins x2 _ _ _ (Cert.Hist.lumaAt (F := Ideal) x1) zeros62_at (idx63_at x2) (luma1_at x1) (idx_main_v65 j) (j 0).val (j 0).isLt rfl

end Cert.ReferenceIdeal.Stats

end
-- ==== Proof.lean ====
/-
  A 16-bin histogram of luma error: three image batches (16 x 3 x 512 x 512, single precision) give, per bin b of the third
  batch's luma (16 where the luma is at least one, else floor(16 * luma) clamped into [0, 15]; bin 16 is discarded), the pixel
  count and the sums of the first and of the second batch's luma over the bin's pixels; the result is the mean over the
  sixteen bins of |psum / max(count, 1) - tsum / max(count, 1)| where the count is positive, zero elsewhere.

  The kernel takes the three statistics of one image per grid point as masked totals and accumulates them, over two groups
  of eight points, into a 2 x 3 x 16 array which the host sums over the groups; the reference scatters the 4194304 flattened
  pixels, each adding into the slot of its bin. At the ideal values both are one sum over the pixels of a bin: addition of
  extended reals is commutative and associative with zero its identity, a masked-out pixel adds zero, and a pixel the
  scatter does not land on a slot adds nothing. The per-pixel luma and bin are the same operations on the same words on
  both sides (the two floors are one function at the ideal values), and both programs finish with the same operations.
  The precondition is not used beyond the frames.
-/
import proofs.«133189_j16312285790284_1_alg».proof.Defs
import proofs.«133189_j16312285790284_1_alg».proof.Proof.Gen.Kernel
import proofs.«133189_j16312285790284_1_alg».proof.Proof.Gen.Kernel.Skeleton
import proofs.«133189_j16312285790284_1_alg».proof.Proof.Gen.Kernel.Launch
import proofs.«133189_j16312285790284_1_alg».proof.Proof.Gen.Kernel.Points
import proofs.«133189_j16312285790284_1_alg».proof.Proof.Gen.Kernel.Frame
import proofs.«133189_j16312285790284_1_alg».proof.Proof.Gen.KernelIdeal
import proofs.«133189_j16312285790284_1_alg».proof.Proof.Gen.KernelIdeal.Skeleton
import proofs.«133189_j16312285790284_1_alg».proof.Proof.Gen.KernelIdeal.Launch
import proofs.«133189_j16312285790284_1_alg».proof.Proof.Gen.KernelIdeal.Points
import proofs.«133189_j16312285790284_1_alg».proof.Proof.Gen.KernelIdeal.Frame
import proofs.«133189_j16312285790284_1_alg».proof.Proof.Gen.ReferenceIdeal
import proofs.«133189_j16312285790284_1_alg».proof.Proof.Gen.Pre_finite_inputs
import proofs.«133189_j16312285790284_1_alg».proof.Proof.KernelStats
import proofs.«133189_j16312285790284_1_alg».proof.Proof.RefStats
import Idealize.ShloMosaic.Adequacy
import Idealize.ShloMosaic.Init

noncomputable section

namespace Cert.Proof

open Idealize.ShloMosaic Idealize.ShloMosaic.TcCoe Idealize.SL.Sem

/-- The reference's result is the finish of the specification's three statistics: its last operations are the finish's, in
    order, over the three sliced scatters. -/
theorem ref_result (x0 x1 x2 : (⟨Cert.ReferenceIdeal.S16x3x512x512, .f32⟩ : BufTy).Contents (Elt Ideal)) :
    Cert.ReferenceIdeal.ReadP.val_main_v76 (F := Ideal) x0 x1 x2
      = Cert.Hist.finish Cert.ReferenceIdeal.Gen.bcast_S_S16 Cert.ReferenceIdeal.Gen.reducesTo_S16_S_d0 Cert.ReferenceIdeal.Gen.h_S_
          (Cert.Hist.counts x2) (Cert.Hist.lumaSums x0 x2) (Cert.Hist.lumaSums x1 x2) := by
  rw [← Cert.ReferenceIdeal.Stats.ref_counts, ← Cert.ReferenceIdeal.Stats.ref_sums0, ← Cert.ReferenceIdeal.Stats.ref_sums1]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the ideal values the kernel's result is the finish of the three statistics of its result array, the reference's the
    finish of the three sliced scatters, of arguments that agree; the statistics are the specification's on both sides. -/
theorem algebraic : Cert.algebraic_KernelIdeal_ReferenceIdeal := by
  intro m ρ m' ρ' _ hagree
  refine ⟨fun c => Cert.KernelIdeal.RunValue.hostTail (Cert.KernelIdeal.RunValue.result m c), Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v76 m' c = Cert.KernelIdeal.RunValue.hostTail (Cert.KernelIdeal.RunValue.result m c)
  rw [Cert.ReferenceIdeal.ReadP.val_main_v76_eq, (hagree c).1, (hagree c).2.1, (hagree c).2.2, ref_result]
  unfold Cert.KernelIdeal.RunValue.hostTail
  rw [Cert.KernelIdeal.Stats.kernel_counts, Cert.KernelIdeal.Stats.kernel_sums0, Cert.KernelIdeal.Stats.kernel_sums1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
